-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  main_v18

def fn {F : FTy → Type} [FloatOps F] (main_arg0 : FVec F S32768x512 .f32) (main_arg1 : FVec F S32768x1 .f32) (main_arg2 : FVec F S8x512x512 .f32) (main_arg3 : FVec F S8x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  let main_v9 : FVec F S8x512x512 .f32 := Host.absf main_arg2
  let main_cst_2 : FVec F S_ .f32 := constant S_ .f32 0x7F800000#32
  let main_v10 : FVec F S8x512x512 .f32 := broadcastInDim S8x512x512 ![] bcast_S_S8x512x512 main_cst_2
  let main_v11 : IVec S8x512x512 1 := cmpf .olt main_v9 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_v13 main_v16
-- ==== Kernel.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S_ : Shape := ⟨0, ![]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S2048x1 : Shape := ⟨2, ![2048, 1]⟩

abbrev nBuf : Space → Nat
  | .hbm => 12
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S8x512x512, .f32⟩
  | .hbm, ⟨3, _⟩ => ⟨S8x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .bf16⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S512x512, .bf16⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8x512x512_S512x512_d0 : S8x512x512.ReducesTo [0] S512x512
  h_S_ : 0 < S_.numel
  transposes_S512x512_S512x512_1_0 : S512x512.Transposes [1, 0] S512x512
  bitsLt_bf16_f32 : FTy.bits .bf16 < FTy.bits .f32
  reducesTo_S8x512_S512_d0 : S8x512.ReducesTo [0] S512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .f32 = 32 ∨ (Rect.block (s := S32768x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S8x512x32768 : Shape := ⟨3, ![8, 512, 32768]⟩
abbrev S8x32768x512 : Shape := ⟨3, ![8, 32768, 512]⟩
abbrev S8x1x512 : Shape := ⟨3, ![8, 1, 512]⟩
abbrev S1x32768x1 : Shape := ⟨3, ![1, 32768, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S8x512x512, .f32⟩
  | .hbm, ⟨3, _⟩ => ⟨S8x512, .f32⟩
  | .hbm, ⟨4, _⟩ => ⟨S8x512x32768, .f32⟩
  | .hbm, ⟨5, _⟩ => ⟨S8x32768x512, .f32⟩
  | .hbm, ⟨6, _⟩ => ⟨S8x1x512, .f32⟩
  | .hbm, ⟨7, _⟩ => ⟨S8x32768x512, .f32⟩
  | .hbm, ⟨8, _⟩ => ⟨S8x32768x512, .f32⟩
  | .hbm, ⟨9, _⟩ => ⟨S1x32768x1, .f32⟩
  | .hbm, ⟨10, _⟩ => ⟨S8x32768x512, .f32⟩
  | .hbm, ⟨11, _⟩ => ⟨S8x32768x512, .f32⟩
  | .hbm, ⟨12, _⟩ => ⟨S_, .f32⟩
  | .hbm, ⟨13, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S8x512x32768_S8x32768x512_0_2_1 : S8x512x32768.Transposes [0, 2, 1] S8x32768x512
  bcast_S8x512_S8x1x512_0_2 : S8x512.BroadcastsInDim S8x1x512 (![0, 2] : Fin 2 → Fin S8x1x512.rank)
  bcast_S8x1x512_S8x32768x512_0_1_2 : S8x1x512.BroadcastsInDim S8x32768x512 (![0, 1, 2] : Fin 3 → Fin S8x32768x512.rank)
  bcast_S32768x1_S1x32768x1_1_2 : S32768x1.BroadcastsInDim S1x32768x1 (![1, 2] : Fin 2 → Fin S1x32768x1.rank)
  bcast_S1x32768x1_S8x32768x512_0_1_2 : S1x32768x1.BroadcastsInDim S8x32768x512 (![0, 1, 2] : Fin 3 → Fin S8x32768x512.rank)
  reducesTo_S8x32768x512_S32768x512_d0 : S8x32768x512.ReducesTo [0] S32768x512
  h_S_ : 0 < S_.numel
  dot_S8x512x512_S32768x512_S8x512x32768_2_1_01_0_n_n_wf : DotDims.WF S8x512x512 S32768x512 S8x512x32768 [2] [1] [0, 1] [0] [] []

variable [Facts₀]

def dot_S8x512x512_S32768x512_S8x512x32768_2_1_01_0_n_n : DotDims S8x512x512 S32768x512 S8x512x32768 where
  lhsContracting := [2]
  rhsContracting := [1]
  lhsNonContracting := [0, 1]
  rhsNonContracting := [0]
  lhsBatch := []
  rhsBatch := []
  wf := dot_S8x512x512_S32768x512_S8x512x32768_2_1_01_0_n_n_wf

class Facts : Prop extends Facts₀ where

variable [Facts]
-- ==== Proof.LibColumn.lean ====
/-
  A column broadcast across the lanes, read at an entry.

  An [a, 1] array broadcast to [a, b] repeats each row's one entry along the row: at (p, c) it reads the operand at (p, 0).
  (The library has the row form, [1, b] to [a, b]; this is the column form a per-row scale meets.)
-/
import Idealize.ShloMosaic.Lib.Pipeline.Value
import Idealize.ShloMosaic.Lib.ValueIdx

namespace Cert.LibColumn

open Idealize.ShloMosaic Idealize.ShloMosaic.ValueIdx

/-- An [a, 1] array broadcast to [a, b] reads, at (p, c), the operand's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.Payload.lean ====
/-
  The value the kernel body stores, read at one entry.

  At a grid point the body holds a block of 2048 input rows (xb), the 512 x 512 matrix of summed weights already transposed
  (wt, rows indexed by the input feature d), the row of summed biases (bs) and the 2048 per-row weights (ws). It stores

      ((xb · wt) + bs) * ws,

  the matrix product accumulated into zero, the bias row repeated down the rows and the weight column repeated across them.
  On the extended reals the change of float format before the product is the identity, so entry (p, q) is

      ((∑ d, xb p d * wt d q) + bs 0 q) * ws p 0.
-/
import proofs.«117249_j60687887892956_1_alg».proof.Proof.Gen.KernelIdeal.Skeleton
import proofs.«117249_j60687887892956_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Moe.Payload

open Cert.KernelIdeal Cert.KernelIdeal.Gen Idealize.ShloMosaic Idealize.ShloMosaic.ValueIdx

/-! ## The product's operand indices: output entry (p, q) and contraction index d meet the left operand at (p, d) and the
right operand at (d, q) -/

theorem lhs_axis0 (i : S2048x512.Idx) (k : dot_S2048x512_S512x512_S2048x512_1_0_0_1_n_n.contr.Idx) :
    (dot_S2048x512_S512x512_S2048x512_1_0_0_1_n_n.lhsIdx i k 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_axis1 (i : S2048x512.Idx) (k : dot_S2048x512_S512x512_S2048x512_1_0_0_1_n_n.contr.Idx) :
    (dot_S2048x512_S512x512_S2048x512_1_0_0_1_n_n.lhsIdx i k 1).val = (k ⟨0, by decide⟩).val :=
  dot_S2048x512_S512x512_S2048x512_1_0_0_1_n_n.lhsIdx_val_of_single rfl i k
theorem rhs_axis0 (i : S2048x512.Idx) (k : dot_S2048x512_S512x512_S2048x512_1_0_0_1_n_n.contr.Idx) :
    (dot_S2048x512_S512x512_S2048x512_1_0_0_1_n_n.rhsIdx i k 0).val = (k ⟨0, by decide⟩).val :=
  dot_S2048x512_S512x512_S2048x512_1_0_0_1_n_n.rhsIdx_val_of_single rfl i k
theorem rhs_axis1 (i : S2048x512.Idx) (k : dot_S2048x512_S512x512_S2048x512_1_0_0_1_n_n.contr.Idx) :
    (dot_S2048x512_S512x512_S2048x512_1_0_0_1_n_n.rhsIdx i k 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The block product into a zero accumulator, at entry (p, q): the sum over the 512 input features. -/
theorem product_apply (A : FVec Ideal S2048x512 .bf16) (B : FVec Ideal S512x512 .bf16) (p : Fin 2048) (q : Fin 512) :
    matmul dot_S2048x512_S512x512_S2048x512_1_0_0_1_n_n none A B (constant S2048x512 .f32 0x00000000#32) (ix2 p q)
      = ∑ d : Fin 512, A (ix2 p d) * B (ix2 d q) := by
  simp only [matmul]
  rw [Ideal.matmul_constant_zero_apply,
    ← Equiv.sum_comp (contrEquiv1 dot_S2048x512_S512x512_S2048x512_1_0_0_1_n_n 512 rfl rfl).symm]
  refine Finset.sum_congr rfl fun d _ => ?_
  have hd := contrEquiv1_symm_val dot_S2048x512_S512x512_S2048x512_1_0_0_1_n_n 512 rfl rfl d
  have el : dot_S2048x512_S512x512_S2048x512_1_0_0_1_n_n.lhsIdx (ix2 p q)
      ((contrEquiv1 dot_S2048x512_S512x512_S2048x512_1_0_0_1_n_n 512 rfl rfl).symm d) = ix2 p d :=
    funext fun a => Fin.ext (by
      match a with
      | ⟨0, _⟩ => exact lhs_axis0 _ _
      | ⟨1, _⟩ => exact (lhs_axis1 _ _).trans hd)
  have er : dot_S2048x512_S512x512_S2048x512_1_0_0_1_n_n.rhsIdx (ix2 p q)
      ((contrEquiv1 dot_S2048x512_S512x512_S2048x512_1_0_0_1_n_n 512 rfl rfl).symm d) = ix2 d q :=
    funext fun a => Fin.ext (by
      match a with
      | ⟨0, _⟩ => exact (rhs_axis0 _ _).trans hd
      | ⟨1, _⟩ => exact rhs_axis1 _ _)
  rw [el, er]

/-- The stored value at entry (p, q) of the block. -/
theorem stored_apply (xb : Vec Ideal S2048x512 .f32) (wt : Vec Ideal S512x512 .bf16) (bs : Vec Ideal S1x512 .f32)
    (ws : Vec Ideal S2048x1 .f32) (p : Fin 2048) (q : Fin 512) :
    k0_pay1 (F := Ideal) xb wt bs ws (ix2 p q)
      = ((∑ d : Fin 512, xb (ix2 p d) * wt (ix2 d q)) + bs (ix2 (0 : Fin 1) q)) * ws (ix2 p (0 : Fin 1)) := by
  unfold k0_pay1
  rw [mulf_apply, addf_apply, product_apply, shapeCast_self, shapeCast_self,
    broadcastTo_1b_ab_apply, Cert.LibColumn.broadcastTo_a1_ab_apply]
  rfl

end Cert.Moe.Payload

end
-- ==== Proof.Entry.lean ====
/-
  The two operands the program computes before the kernel region, as the region finds them.

  Before the region the program sums the eight weight matrices over the layer axis, transposes the sum and changes its float
  format (the identity on the extended reals); and it sums the eight bias rows and views the result as a one-row matrix. Read
  at an entry, with the zero the sums start from dropped:

      matrix operand at (d, f) = ∑ e, W e f d            bias operand at (0, f) = ∑ e, b e f.
-/
import proofs.«117249_j60687887892956_1_alg».proof.Proof.Gen.KernelIdeal.Frame
import Idealize.ShloMosaic.Lib.StableHlo.Run
import Idealize.ShloMosaic.Lib.ValueLayout
import Idealize.ShloMosaic.Lib.ValueIdx
import Idealize.ShloMosaic.PureOps.Ideal.Laws

noncomputable section

namespace Cert.Moe.Entry

open Cert.KernelIdeal Cert.KernelIdeal.Gen Idealize.ShloMosaic Idealize.ShloMosaic.ValueIdx Idealize.ShloMosaic.TcCoe
open Idealize.SL.Sem Idealize.ShloMosaic.StableHlo

/-! ## A host sum over the leading axis, at an entry -/

/-- The eight matrices summed from zero, at (f, d): the sum of their entries there. -/
theorem sum_matrices_apply (W : FVec Ideal S8x512x512 .f32) (f d : Fin 512) :
    Host.reduceAdd W (constant S_ .f32 0x00000000#32) reducesTo_S8x512x512_S512x512_d0 h_S_ (ix2 f d)
      = ∑ e : Fin 8, W (ix3 e f d) := by
  simp only [Host.reduceAdd, Ideal.hostReduceAdd_def]
  rw [Ideal.hostReduceAdd_single reducesTo_S8x512x512_S512x512_d0 (by decide)]
  show Ideal.ofBits .f32 0x00000000#32 + _ = _
  rw [Ideal.ofBits_zero_f32, zero_add]
  exact Finset.sum_congr rfl fun e _ => congrArg W (funext fun a => Fin.ext (by
    match a with | ⟨0, _⟩ => rfl | ⟨1, _⟩ => rfl | ⟨2, _⟩ => rfl))

/-- The eight bias rows summed from zero, at f: the sum of their entries there. -/
theorem sum_rows_apply (b : FVec Ideal S8x512 .f32) (f : Fin 512) :
    Host.reduceAdd b (constant S_ .f32 0x00000000#32) reducesTo_S8x512_S512_d0 h_S_ (ix1 f)
      = ∑ e : Fin 8, b (ix2 e f) := by
  simp only [Host.reduceAdd, Ideal.hostReduceAdd_def]
  rw [Ideal.hostReduceAdd_single reducesTo_S8x512_S512_d0 (by decide)]
  show Ideal.ofBits .f32 0x00000000#32 + _ = _
  rw [Ideal.ofBits_zero_f32, zero_add]
  exact Finset.sum_congr rfl fun e _ => congrArg b (funext fun a => Fin.ext (by
    match a with | ⟨0, _⟩ => rfl | ⟨1, _⟩ => rfl))

variable (m : (ℓ : Loc nD τ sig) → Buf (Elt Ideal) ℓ)

/-! ## The arrays, named at their literal types -/

/-- The eight weight matrices as launched. -/
abbrev weights (c : Dev nD) : FVec Ideal S8x512x512 .f32 := m ((c : Thread nD τ).loc main_arg2)
/-- The eight bias rows as launched. -/
abbrev biases (c : Dev nD) : FVec Ideal S8x512 .f32 := m ((c : Thread nD τ).loc main_arg3)
/-- The matrix operand as the region finds it. -/
abbrev matrixOperand (c : Dev nD) : FVec Ideal S512x512 .bf16 := V m c main_v2
/-- The bias operand as the region finds it. -/
abbrev biasOperand (c : Dev nD) : FVec Ideal S1x512 .f32 := V m c main_v4

/-! ## The matrix operand -/

/-- The matrix operand at region entry, as a term of the launch contents of the weights. -/
theorem matrixOperand_eq (c : Dev nD) :
    matrixOperand m c
      = truncf .bf16 (transpose S512x512 [1, 0]
          (Host.reduceAdd (weights m c) (constant S_ .f32 0x00000000#32)
            reducesTo_S8x512x512_S512x512_d0 h_S_) transposes_S512x512_S512x512_1_0) bitsLt_bf16_f32 := by
  dsimp only [matrixOperand, weights, Gen.V, Gen.hostOps0]
  after_results

/-- Its entry (d, f): the eight matrices' entries at (f, d), summed. -/
theorem matrixOperand_apply (c : Dev nD) (d f : Fin 512) :
    matrixOperand m c (ix2 d f) = ∑ e : Fin 8, weights m c (ix3 e f d) := by
  rw [matrixOperand_eq, truncf_apply, transpose_ix2_apply, sum_matrices_apply]

/-! ## The bias operand -/

/-- The bias operand at region entry, as a term of the launch contents of the biases. -/
theorem biasOperand_eq (c : Dev nD) :
    biasOperand m c
      = shapeCast S1x512 (Host.reduceAdd (biases m c) (constant S_ .f32 0x00000000#32)
          reducesTo_S8x512_S512_d0 h_S_) shapeCasts_S512_S1x512 := by
  dsimp only [biasOperand, biases, Gen.V, Gen.hostOps0]
  after_results
  rfl

/-- Its entry (0, f): the eight bias rows' entries at f, summed. -/
theorem biasOperand_apply (c : Dev nD) (f : Fin 512) :
    biasOperand m c (ix2 (0 : Fin 1) f) = ∑ e : Fin 8, biases m c (ix2 e f) := by
  rw [biasOperand_eq, shapeCast_a_1a_apply, sum_rows_apply]

end Cert.Moe.Entry

end
-- ==== Proof.Spec.lean ====
/-
  The function both programs compute, and the law that joins their two arrangements of it.

  There are E = 8 square weight matrices W e (rows indexed by the output feature f, columns by the input feature d), E bias
  rows b e, N = 32768 input rows x n of D = 512 features, and one weight w n per row. The reference applies every linear
  layer, weights each result by w n, and sums over e:

      out n f = ∑ e, ((∑ d, W e f d * x n d) + b e f) * w n.

  The kernel first sums the matrices and the bias rows over e, and then does one matrix product:

      out n f = ((∑ d, x n d * ∑ e, W e f d) + ∑ e, b e f) * w n.

  Over the real numbers these agree: the factor w n leaves the sum over e (distributivity), the sum of a sum splits, the two
  finite sums over e and d are exchanged, and x n d enters the inner sum. Distributivity fails on the extended reals at
  infinities, so the law is proved for real entries and carried to extended reals that are real numbers.
-/
import Idealize.ShloMosaic.PureOps.Ideal
import Idealize.ShloMosaic.Lib.ValueIdx

noncomputable section

namespace Cert.Moe

open Idealize.ShloMosaic Idealize.ShloMosaic.ValueIdx

/-! ## The law, over the reals -/

/-- One summed product, a summed bias and a common factor, against the sum of the weighted affine maps. -/
theorem combine_real {ι κ : Type} [Fintype ι] [Fintype κ] (x : κ → ℝ) (W : ι → κ → ℝ) (b : ι → ℝ) (w : ℝ) :
    ((∑ d, x d * ∑ e, W e d) + ∑ e, b e) * w = ∑ e, ((∑ d, W e d * x d) + b e) * w := by
  have h1 : ∑ e, ((∑ d, W e d * x d) + b e) * w = (∑ e, ((∑ d, W e d * x d) + b e)) * w :=
    (Finset.sum_mul _ _ _).symm
  have h2 : ∑ d, x d * ∑ e, W e d = ∑ e, ∑ d, W e d * x d := by
    rw [Finset.sum_comm]
    refine Finset.sum_congr rfl fun d _ => ?_
    rw [Finset.mul_sum]
    exact Finset.sum_congr rfl fun e _ => mul_comm _ _
  rw [h1, Finset.sum_add_distrib, h2]

/-! ## The same on extended reals that are real numbers -/

/-- The inclusion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law for extended-real entries every one of which is a real number. -/
theorem combine {ι κ : Type} [Fintype ι] [Fintype κ] (x : κ → EReal) (W : ι → κ → EReal) (b : ι → EReal) (w : EReal)
    (hx : ∀ d, ∃ r : ℝ, x d = r) (hW : ∀ e d, ∃ r : ℝ, W e d = r) (hb : ∀ e, ∃ r : ℝ, b e = r) (hw : ∃ r : ℝ, w = r) :
    ((∑ d, x d * ∑ e, W e d) + ∑ e, b e) * w = ∑ e, ((∑ d, W e d * x d) + b e) * w := by
  choose x' hx using hx
  choose W' hW using hW
  choose b' hb using hb
  obtain ⟨w', rfl⟩ := hw
  obtain rfl : x = fun d => (x' d : EReal) := funext hx
  obtain rfl : W = fun e d => (W' e d : EReal) := funext fun e => funext (hW e)
  obtain rfl : b = fun e => (b' e : EReal) := funext hb
  simp only [← coe_sum, ← EReal.coe_mul, ← EReal.coe_add]
  exact congrArg _ (combine_real x' W' b' w')

/-! ## The result, as one function of the argument arrays -/

/-- Entry (n, f) of the result: the sum over the eight layers of (W e · x n + b e) at f, each weighted by w n. -/
def outAt (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal)
    (n : Fin 32768) (f : Fin 512) : EReal :=
  ∑ e : Fin 8, ((∑ d : Fin 512, W (ix3 e f d) * x (ix2 n d)) + b (ix2 e f)) * w (ix2 n (0 : Fin 1))

/-- The whole result array. -/
def out (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal) :
    (⟨2, ![32768, 512]⟩ : Shape).Idx → EReal :=
  fun i => outAt x w W b (i 0) (i 1)

/-- The kernel's arrangement of entry (n, f) is the result's, when every argument entry is a real number. -/
theorem fused_eq_outAt (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal)
    (hx : ∀ i, ∃ r : ℝ, x i = r) (hw : ∀ i, ∃ r : ℝ, w i = r) (hW : ∀ i, ∃ r : ℝ, W i = r) (hb : ∀ i, ∃ r : ℝ, b i = r)
    (n : Fin 32768) (f : Fin 512) :
    ((∑ d : Fin 512, x (ix2 n d) * ∑ e : Fin 8, W (ix3 e f d)) + ∑ e : Fin 8, b (ix2 e f)) * w (ix2 n (0 : Fin 1))
      = outAt x w W b n f :=
  combine (fun d => x (ix2 n d)) (fun e d => W (ix3 e f d)) (fun e => b (ix2 e f)) (w (ix2 n 0))
    (fun d => hx _) (fun e d => hW _) (fun e => hb _) (hw _)

/-! ## The kernel's arrangement, as a function of the arrays its body reads -/

/-- Entry (n, f) as the kernel arranges it: row n of the input against column f of a 512 x 512 matrix WT, plus entry f of a
    row BS, times the row's weight. -/
def fusedAt (x : (⟨2, ![32768, 512]⟩ : Shape).Idx → EReal) (w : (⟨2, ![32768, 1]⟩ : Shape).Idx → EReal)
    (WT : (⟨2, ![512, 512]⟩ : Shape).Idx → EReal) (BS : (⟨2, ![1, 512]⟩ : Shape).Idx → EReal)
    (n : Fin 32768) (f : Fin 512) : EReal :=
  ((∑ d : Fin 512, x (ix2 n d) * WT (ix2 d f)) + BS (ix2 (0 : Fin 1) f)) * w (ix2 n (0 : Fin 1))

/-- The whole array in that arrangement. -/
def fused (x : (⟨2, ![32768, 512]⟩ : Shape).Idx → EReal) (w : (⟨2, ![32768, 1]⟩ : Shape).Idx → EReal)
    (WT : (⟨2, ![512, 512]⟩ : Shape).Idx → EReal) (BS : (⟨2, ![1, 512]⟩ : Shape).Idx → EReal) :
    (⟨2, ![32768, 512]⟩ : Shape).Idx → EReal :=
  fun i => fusedAt x w WT BS (i 0) (i 1)

/-- When WT is the transposed sum of the eight matrices and BS the sum of the eight bias rows, and every argument entry is a
    real number, the kernel's arrangement is the result. -/
theorem fused_eq_out (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal)
    (WT : (⟨2, ![512, 512]⟩ : Shape).Idx → EReal) (BS : (⟨2, ![1, 512]⟩ : Shape).Idx → EReal)
    (hWT : ∀ (d f : Fin 512), WT (ix2 d f) = ∑ e : Fin 8, W (ix3 e f d))
    (hBS : ∀ f : Fin 512, BS (ix2 (0 : Fin 1) f) = ∑ e : Fin 8, b (ix2 e f))
    (hx : ∀ i, ∃ r : ℝ, x i = r) (hw : ∀ i, ∃ r : ℝ, w i = r) (hW : ∀ i, ∃ r : ℝ, W i = r) (hb : ∀ i, ∃ r : ℝ, b i = r) :
    fused x w WT BS = out x w W b := by
  funext i
  obtain ⟨n, f, rfl⟩ : ∃ (n : Fin 32768) (f : Fin 512), i = ix2 n f := ⟨i 0, i 1, eq_ix2 i⟩
  show fusedAt x w WT BS n f = outAt x w W b n f
  unfold fusedAt
  simp only [hWT, hBS]
  exact fused_eq_outAt x w W b hx hw hW hb n f

end Cert.Moe

end
-- ==== Proof.Blocks.lean ====
/-
  From what each grid point writes back to the whole result array.

  The grid has 16 points. Point t stages rows 2048 t … 2048 t + 2047 of the input and of the per-row weights, the whole
  matrix operand and the whole bias operand, and writes back rows 2048 t … 2048 t + 2047 of the result. So the entry (p, q) it
  stores is entry (2048 t + p, q) of the array `fused` of the arrays as the region finds them; the sixteen row blocks tile
  the 32768 rows, so after the run the result array is `fused` everywhere.
-/
import proofs.«117249_j60687887892956_1_alg».proof.Proof.Gen.KernelIdeal.Value
import proofs.«117249_j60687887892956_1_alg».proof.Proof.Payload
import proofs.«117249_j60687887892956_1_alg».proof.Proof.Entry
import proofs.«117249_j60687887892956_1_alg».proof.Proof.Spec

set_option maxRecDepth 16384

noncomputable section

namespace Cert.Moe.Blocks

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The input rows as the region finds them. -/
abbrev input (c : Dev nD) : FVec Ideal S32768x512 .f32 := V m c main_arg0
/-- The per-row weights as the region finds them. -/
abbrev rowWeights (c : Dev nD) : FVec Ideal S32768x1 .f32 := V m c main_arg1

/-- The kernel's whole-array function of the arrays as the region finds them. -/
abbrev result (c : Dev nD) : FVec Ideal S32768x512 .f32 :=
  Cert.Moe.fused (input m c) (rowWeights m c) (Cert.Moe.Entry.matrixOperand m c) (Cert.Moe.Entry.biasOperand m c)

theorem origin : (![0, 0] : Fin 2 → Nat) = fun _ => 0 := funext fun a => by fin_cases a <;> rfl

/-- The block indices, decided over the sixteen points: the row-blocked windows (input, row weights, result) are at block
    (t, 0), the two resident operands at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row 2048 t + p is a row of the array. -/
theorem row_lt (t : Fin cfg0.N) (p : Fin 2048) : t.val * 2048 + p.val < 32768 := by
  have ht : t.val < 16 := lt_of_lt_of_eq t.isLt N_0
  have := p.isLt; omega

/-- Row p of the block at point t, as a row of the array. -/
abbrev row (t : Fin cfg0.N) (p : Fin 2048) : Fin 32768 := ⟨t.val * 2048 + p.val, row_lt t p⟩

/-! ## Each staged block, read at an entry -/

/-- The input block at point t, entry (p, d): the input at (2048 t + p, d). -/
theorem input_block (c : Dev nD) (t : Fin cfg0.N) (p : Fin 2048) (d : Fin 512) :
    (iblk m c 0 t : S2048x512.Idx → EReal) (ix2 p d) = input m c (ix2 (row t p) d) := by
  obtain ⟨e0, e1, -⟩ := block_indices t
  show V m c main_arg0 (((cfg0.win 0).blk t).view.emb (ix2 p d)) = V m c main_arg0 (ix2 (row t p) d)
  refine congrArg (V m c main_arg0) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 512 + 1 * d.val = d.val; rw [e1]; omega

/-- The row-weight block at point t, entry (p, 0): the row weight at (2048 t + p, 0). -/
theorem rowWeights_block (c : Dev nD) (t : Fin cfg0.N) (p : Fin 2048) :
    (iblk m c 1 t : S2048x1.Idx → EReal) (ix2 p (0 : Fin 1)) = rowWeights m c (ix2 (row t p) (0 : Fin 1)) := by
  obtain ⟨-, -, e0, e1, -⟩ := block_indices t
  show V m c main_arg1 (((cfg0.win 1).blk t).view.emb (ix2 p (0 : Fin 1))) = V m c main_arg1 (ix2 (row t p) (0 : Fin 1))
  refine congrArg (V m c main_arg1) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 1 + 1 * 0 = 0; rw [e1]

/-- The matrix operand's block at any point is the whole operand. -/
theorem matrix_block (c : Dev nD) (t : Fin cfg0.N) (d q : Fin 512) :
    (iblk m c 2 t : S512x512.Idx → EReal) (ix2 d q) = Cert.Moe.Entry.matrixOperand m c (ix2 d q) := by
  obtain ⟨-, -, -, -, e0, e1, -⟩ := block_indices t
  show V m c main_v2 (((cfg0.win 2).blk t).view.emb (ix2 d q)) = V m c main_v2 (ix2 d q)
  refine congrArg (V m c main_v2) (funext fun a => Fin.ext ?_)
  match a with
  | ⟨0, _⟩ => show win0_2.index t (0 : Fin 2) * 512 + 1 * d.val = d.val; rw [e0]; omega
  | ⟨1, _⟩ => show win0_2.index t (1 : Fin 2) * 512 + 1 * q.val = q.val; rw [e1]; omega

/-- The bias operand's block at any point is the whole operand. -/
theorem bias_block (c : Dev nD) (t : Fin cfg0.N) (q : Fin 512) :
    (iblk m c 3 t : S1x512.Idx → EReal) (ix2 (0 : Fin 1) q) = Cert.Moe.Entry.biasOperand m c (ix2 (0 : Fin 1) q) := by
  obtain ⟨-, -, -, -, -, -, e0, e1, -⟩ := block_indices t
  show V m c main_v4 (((cfg0.win 3).blk t).view.emb (ix2 (0 : Fin 1) q)) = V m c main_v4 (ix2 (0 : Fin 1) q)
  refine congrArg (V m c main_v4) (funext fun a => Fin.ext ?_)
  match a with
  | ⟨0, _⟩ => show win0_3.index t (0 : Fin 2) * 1 + 1 * 0 = 0; rw [e0]
  | ⟨1, _⟩ => show win0_3.index t (1 : Fin 2) * 512 + 1 * q.val = q.val; rw [e1]; omega

/-! ## What a point writes back -/

/-- Entry (p, q) of the result's block at point t is entry (2048 t + p, q) of the array. -/
theorem result_block (c : Dev nD) (t : Fin cfg0.N) (p : Fin 2048) (q : Fin 512) :
    ((cfg0.win 4).blk t).view.read (Elt Ideal) (result m c) (ix2 p q) = Cert.Moe.fusedAt (input m c) (rowWeights m c)
      (Cert.Moe.Entry.matrixOperand m c) (Cert.Moe.Entry.biasOperand m c) (row t p) q := by
  obtain ⟨-, -, -, -, -, -, -, -, e0, e1⟩ := block_indices t
  show Cert.Moe.fused (input m c) (rowWeights m c) (Cert.Moe.Entry.matrixOperand m c) (Cert.Moe.Entry.biasOperand m c)
      (((cfg0.win 4).blk t).view.emb (ix2 p q)) = _
  have hi : ((cfg0.win 4).blk t).view.emb (ix2 p q) = (ix2 (row t p) q : S32768x512.Idx) := funext fun a => Fin.ext (by
    match a with
    | ⟨0, _⟩ => show win0_4.index t (0 : Fin 2) * 2048 + 1 * p.val = t.val * 2048 + p.val; rw [e0]; omega
    | ⟨1, _⟩ => show win0_4.index t (1 : Fin 2) * 512 + 1 * q.val = q.val; rw [e1]; omega)
  rw [hi]
  rfl

/-- What point t writes back is block t of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero origin]
  simp only [View.ld_unit_zero (S := S2048x512) origin, View.ld_unit_zero (S := S512x512) origin,
    View.ld_unit_zero (S := S1x512) origin, View.ld_unit_zero (S := S2048x1) origin]
  funext j
  obtain ⟨p, q, rfl⟩ : ∃ (p : Fin 2048) (q : Fin 512), j = ix2 p q := ⟨j 0, j 1, eq_ix2 j⟩
  rw [result_block]
  show k0_pay1 (F := Ideal) (iblk m c 0 t) (iblk m c 2 t) (iblk m c 3 t) (iblk m c 1 t) (ix2 p q) = _
  rw [Cert.Moe.Payload.stored_apply]
  unfold Cert.Moe.fusedAt
  rw [rowWeights_block, bias_block]
  simp only [input_block, matrix_block]

/-! ## The blocks tile the array -/

/-- An index of the array is in point t's block iff each coordinate is in the block's range on its axis. -/
theorem mem_block (t : Fin cfg0.N) (i : S32768x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v5).slice (win0_4.rect t)).set ↔ _
  rw [View.set_slice_whole, Rect.mem_set_unit]
  exact Iff.rfl

/-- Every index of the array is in the block of the point its row falls in. -/
theorem covered (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 16 := N_0
  let t : Fin cfg0.N := ⟨(i 0).val / 2048, by rw [hN]; omega⟩
  obtain ⟨-, -, -, -, -, -, -, -, e0, e1⟩ := block_indices t
  have ht : t.val = (i 0).val / 2048 := rfl
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 512 ≤ (i 1).val ∧ (i 1).val < win0_4.index t (1 : Fin 2) * 512 + 512
    rw [e1]; omega

/-- The result array after the run is `result`. -/
theorem final (c : Dev nD) : (dats m 0 c).arrAt 4 cfg0.N = result m c :=
  (dats m 0 c).arrAt_eq_of_cover 4 (result m c) (fun t _ => flushed_eq m c t) covered

/-! ## The result array as a function of the launch contents -/

/-- The input rows as launched. -/
abbrev launchInput (c : Dev nD) : FVec Ideal S32768x512 .f32 := m ((c : Thread nD τ).loc main_arg0)
/-- The per-row weights as launched. -/
abbrev launchRowWeights (c : Dev nD) : FVec Ideal S32768x1 .f32 := m ((c : Thread nD τ).loc main_arg1)

/-- Nothing before the region writes the input rows or the row weights. -/
theorem input_eq (c : Dev nD) : input m c = launchInput m c := V_main_arg0 m c
theorem rowWeights_eq (c : Dev nD) : rowWeights m c = launchRowWeights m c := V_main_arg1 m c

/-- When every entry of the four launched arrays is a real number, the result array after the run is `out` of them: the
    matrix operand is the transposed sum of the weight matrices, the bias operand the sum of the bias rows, and the law of
    the specification joins the two arrangements. -/
theorem final_eq_out (c : Dev nD)
    (hx : ∀ i, ∃ r : ℝ, launchInput m c i = (r : EReal)) (hw : ∀ i, ∃ r : ℝ, launchRowWeights m c i = (r : EReal))
    (hW : ∀ i, ∃ r : ℝ, Cert.Moe.Entry.weights m c i = (r : EReal)) (hb : ∀ i, ∃ r : ℝ, Cert.Moe.Entry.biases m c i = (r : EReal)) :
    (dats m 0 c).arrAt 4 cfg0.N
      = Cert.Moe.out (launchInput m c) (launchRowWeights m c) (Cert.Moe.Entry.weights m c) (Cert.Moe.Entry.biases m c) := by
  rw [final]
  show Cert.Moe.fused (input m c) (rowWeights m c) (Cert.Moe.Entry.matrixOperand m c) (Cert.Moe.Entry.biasOperand m c) = _
  rw [input_eq, rowWeights_eq]
  exact Cert.Moe.fused_eq_out _ _ _ _ _ _ (Cert.Moe.Entry.matrixOperand_apply m c) (Cert.Moe.Entry.biasOperand_apply m c)
    hx hw hW hb

end Cert.Moe.Blocks

end
-- ==== Proof.RefValue.lean ====
/-
  The reference's result is the function `out` of the argument arrays.

  The reference contracts every weight matrix with every input row into an [8, 512, 32768] array, transposes it to
  [8, 32768, 512], adds each layer's bias row (repeated down the rows), multiplies by the per-row weights (repeated across the
  layers and the features) and sums over the layer axis from zero. Followed back from result entry (n, f) and layer e, the
  indices are: weights at (e, f, d), input at (n, d), bias at (e, f), row weight at (n, 0).
-/
import proofs.«117249_j60687887892956_1_alg».proof.Proof.Gen.ReferenceIdeal.Read
import proofs.«117249_j60687887892956_1_alg».proof.Proof.Spec

noncomputable section

namespace Cert.Moe.RefValue

open Cert.ReferenceIdeal Cert.ReferenceIdeal.Gen Cert.ReferenceIdeal.Read
open Idealize.ShloMosaic Idealize.ShloMosaic.ValueIdx

/-- The weights' index behind result entry (n, f), layer e and input feature d. -/
theorem weights_idx (n : Fin 32768) (f : Fin 512) (e : Fin 8) (d : Fin 512) :
    lidx_main_v0 (idx_main_v1 (idx_main_v8 (ix2 n f) e)) d = ix3 e f d :=
  funext fun a => Fin.ext (by match a with | ⟨0, _⟩ => rfl | ⟨1, _⟩ => rfl | ⟨2, _⟩ => rfl)

/-- The input's index behind result entry (n, f), layer e and input feature d. -/
theorem input_idx (n : Fin 32768) (f : Fin 512) (e : Fin 8) (d : Fin 512) :
    ridx_main_v0 (idx_main_v1 (idx_main_v8 (ix2 n f) e)) d = ix2 n d :=
  funext fun a => Fin.ext (by match a with | ⟨0, _⟩ => rfl | ⟨1, _⟩ => rfl)

/-- The bias's index behind result entry (n, f) and layer e. -/
theorem bias_idx (n : Fin 32768) (f : Fin 512) (e : Fin 8) :
    idx_main_v2 (idx_main_v3 (idx_main_v8 (ix2 n f) e)) = ix2 e f :=
  funext fun a => Fin.ext (by match a with | ⟨0, _⟩ => rfl | ⟨1, _⟩ => rfl)

/-- The row weight's index behind result entry (n, f) and layer e. -/
theorem rowweight_idx (n : Fin 32768) (f : Fin 512) (e : Fin 8) :
    idx_main_v5 (idx_main_v6 (idx_main_v8 (ix2 n f) e)) = ix2 n (0 : Fin 1) :=
  funext fun a => Fin.ext (by match a with | ⟨0, _⟩ => rfl | ⟨1, _⟩ => rfl)

/-- The reference's last stage, on the extended reals, is `out`. -/
theorem result_eq_out (x : FVec Ideal S32768x512 .f32) (w : FVec Ideal S32768x1 .f32) (W : FVec Ideal S8x512x512 .f32)
    (b : FVec Ideal S8x512 .f32) :
    val_main_v8 (F := Ideal) x w W b = Cert.Moe.out x w W b := by
  funext i
  obtain ⟨n, f, rfl⟩ : ∃ (n : Fin 32768) (f : Fin 512), i = ix2 n f := ⟨i 0, i 1, eq_ix2 i⟩
  rw [val_main_v8_apply, val_main_cst_apply]
  show Ideal.ofBits .f32 0x00000000#32 + _ = Cert.Moe.outAt x w W b n f
  rw [Ideal.ofBits_zero_f32, zero_add]
  unfold Cert.Moe.outAt
  refine Finset.sum_congr rfl fun e _ => ?_
  rw [val_main_v7_apply, val_main_v4_apply, val_main_v1_apply, val_main_v0_apply, val_main_v3_apply, val_main_v2_apply,
    val_main_v6_apply, val_main_v5_apply]
  simp only [weights_idx, input_idx, bias_idx, rowweight_idx]
  rfl

end Cert.Moe.RefValue

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  The precondition says every entry of all four argument arrays is a real number.

  The printed precondition is the conjunction of four tests, one per array, each the test "every |entry| is below +∞"; on the
  extended reals that holds of an entry exactly when it is a real number.
-/
import proofs.«117249_j60687887892956_1_alg».proof.Pre_finite_inputs
import proofs.«117249_j60687887892956_1_alg».proof.Proof.LibFinite
import Idealize.ShloMosaic.Lib.Affine
import Idealize.ShloMosaic.Lib.ReduceAll
import Idealize.ShloMosaic.Lib.ValueIdx

noncomputable section

namespace Cert.Moe.Finite

open Cert.Pre_finite_inputs Idealize.ShloMosaic

variable [Cert.Pre_finite_inputs.Facts]

/-- From the precondition at its one index: each array's entries are real numbers. -/
theorem reals_of_pre (x : FVec Ideal S32768x512 .f32) (w : FVec Ideal S32768x1 .f32) (W : FVec Ideal S8x512x512 .f32)
    (b : FVec Ideal S8x512 .f32) (h : Cert.Pre_finite_inputs.fn (F := Ideal) x w W b = fun _ => 1#1) :
    (∀ i, ∃ r : ℝ, x i = (r : EReal)) ∧ (∀ i, ∃ r : ℝ, w i = (r : EReal)) ∧ (∀ i, ∃ r : ℝ, W i = (r : EReal))
      ∧ (∀ i, ∃ r : ℝ, b i = (r : EReal)) := by
  have h0 := congrFun h ValueIdx.ix0
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨hx, hw⟩ := IntOp.andi_eq_one.mp h01
  exact ⟨Cert.LibFinite.real_of_all x _ _ _ _ hx, Cert.LibFinite.real_of_all w _ _ _ _ hw,
    Cert.LibFinite.real_of_all W _ _ _ _ h2, Cert.LibFinite.real_of_all b _ _ _ _ h3⟩

end Cert.Moe.Finite

end
-- ==== Proof.lean ====
/-
  Eight linear layers weighted and summed, against one fused matrix product.

  Arguments: N = 32768 input rows x n of D = 512 features; one weight w n per row; E = 8 weight matrices W e (rows indexed by the
  output feature f, columns by the input feature d); E bias rows b e. The reference applies every layer, weights each result by
  the row's weight and sums over the layers:

      out n f = ∑ e, ((∑ d, W e f d * x n d) + b e f) * w n.

  The kernel's program first sums the matrices and the bias rows over e (and transposes the summed matrix), and its one kernel
  region, on a grid of 16 blocks of 2048 rows, computes ((x · WT) + BS) * w with WT d f = ∑ e, W e f d and BS f = ∑ e, b e f:

      out n f = ((∑ d, x n d * ∑ e, W e f d) + ∑ e, b e f) * w n.

  On the extended reals a change of float format is the identity and both programs' sums are exact, so the two sides differ
  only in arrangement. They agree by distributivity and the exchange of the two finite sums — laws of the real numbers that
  fail at infinities —, and the precondition (every argument entry finite) says exactly that every entry is a real number.

  The modules: Spec (the function `out`, the kernel's arrangement `fused`, and the law between them, over the reals and
  then over extended reals that are real), Payload (the value the kernel body stores, at an entry), Entry (the summed matrix
  and the summed bias row as the region finds them, at an entry), Blocks (what each grid point writes back is its block of
  `fused`; the blocks tile the array; the array is `out` of the launched arrays), RefValue (the reference's last stage is
  `out`), Finite (the precondition makes every entry a real number). The three frames are the generated ones; the kernel's
  idealization rewrote no operation, so that conjunct is trivial.
-/
import proofs.«117249_j60687887892956_1_alg».proof.Defs
import proofs.«117249_j60687887892956_1_alg».proof.Proof.Gen.Kernel
import proofs.«117249_j60687887892956_1_alg».proof.Proof.Gen.Kernel.Frame
import proofs.«117249_j60687887892956_1_alg».proof.Proof.Gen.KernelIdeal
import proofs.«117249_j60687887892956_1_alg».proof.Proof.Gen.KernelIdeal.Frame
import proofs.«117249_j60687887892956_1_alg».proof.Proof.Gen.KernelIdeal.Value
import proofs.«117249_j60687887892956_1_alg».proof.Proof.Gen.ReferenceIdeal
import proofs.«117249_j60687887892956_1_alg».proof.Proof.Gen.ReferenceIdeal.Run
import proofs.«117249_j60687887892956_1_alg».proof.Proof.Gen.ReferenceIdeal.Read
import proofs.«117249_j60687887892956_1_alg».proof.Proof.Gen.Pre_finite_inputs
import proofs.«117249_j60687887892956_1_alg».proof.Proof.Blocks
import proofs.«117249_j60687887892956_1_alg».proof.Proof.RefValue
import proofs.«117249_j60687887892956_1_alg».proof.Proof.Finite
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel's program was rewritten for the reading on the extended reals. -/
theorem preserves : Cert.preserves_Kernel_KernelIdeal := trivial

/-- From memories that agree on the arguments, both programs end with the result array at `out` of the launched arrays:
    the kernel's by its blocks and the law of the specification, under the precondition's finiteness; the reference's by
    reading its operations at an index. -/
theorem algebraic : Cert.algebraic_KernelIdeal_ReferenceIdeal := by
  intro m ρ m' ρ' hpre hagree
  refine ⟨fun c => Cert.Moe.out (Cert.Moe.Blocks.launchInput m c) (Cert.Moe.Blocks.launchRowWeights m c)
    (Cert.Moe.Entry.weights m c) (Cert.Moe.Entry.biases m c), ?_, ?_⟩
  · refine (θ_run Cert.KernelIdeal.defs _ _).mono (fun r h c => ⟨(h c).1.trans ?_, (h c).2⟩)
      (Cert.KernelIdeal.Value.run_blocks m ρ)
    obtain ⟨hx, hw, hW, hb⟩ := Cert.Moe.Finite.reals_of_pre _ _ _ _ (hpre c)
    exact Cert.Moe.Blocks.final_eq_out m c hx hw hW hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.Moe.RefValue.result_eq_out, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
